-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x64 .f32) (main_arg8 : FVec F S3 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S3x64 .f32) (main_arg8 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2097152x32 .f32) (main_arg1 : FVec F S64x32 .f32) (main_arg2 : FVec F S64 .f32) (main_arg3 : FVec F S64x64 .f32) (main_arg4 : FVec F S64 .f32) (main_arg5 : FVec F S64x64 .f32) (main_arg6 : FVec F S64 .f32) (main_arg7 : FVec F S3x64 .f32) (main_arg8 : FVec F S3 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S32x2097152 : Shape := ⟨2, ![32, 2097152]⟩
abbrev S64x1 : Shape := ⟨2, ![64, 1]⟩
abbrev S3x1 : Shape := ⟨2, ![3, 1]⟩
abbrev S3x2097152 : Shape := ⟨2, ![3, 2097152]⟩
abbrev S32x16384 : Shape := ⟨2, ![32, 16384]⟩
abbrev S3x16384 : Shape := ⟨2, ![3, 16384]⟩
abbrev S64x16384 : Shape := ⟨2, ![64, 16384]⟩
abbrev S2097152x3 : Shape := ⟨2, ![2097152, 3]⟩

abbrev nBuf : Space → Nat
  | .hbm => 21
  | .vmem => 12
  | .smem => 0
  | _ => 0

abbrev bufTy : (tb : Table) → Fin (tcTables nBuf tb) → BufTy
  | .hbm, ⟨0, _⟩ => ⟨S2097152x32, .f32⟩
  | .hbm, ⟨1, _⟩ => ⟨S64x32, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S3x64, .f32⟩
  | .hbm, ⟨8, _⟩ => ⟨S3, .f32⟩
  | .hbm, ⟨9, _⟩ => ⟨S2097152x32, .bf16⟩
  | .hbm, ⟨10, _⟩ => ⟨S32x2097152, .bf16⟩
  | .hbm, ⟨11, _⟩ => ⟨S64x32, .bf16⟩
  | .hbm, ⟨12, _⟩ => ⟨S64x64, .bf16⟩
  | .hbm, ⟨13, _⟩ => ⟨S64x64, .bf16⟩
  | .hbm, ⟨14, _⟩ => ⟨S3x64, .bf16⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S3x1, .f32⟩
  | .hbm, ⟨19, _⟩ => ⟨S3x2097152, .f32⟩
  | .hbm, ⟨20, _⟩ => ⟨S2097152x3, .f32⟩
  | .local _ .vmem, ⟨0, _⟩ => ⟨S32x16384, .bf16⟩
  | .local _ .vmem, ⟨1, _⟩ => ⟨S32x16384, .bf16⟩
  | .local _ .vmem, ⟨2, _⟩ => ⟨S64x32, .bf16⟩
  | .local _ .vmem, ⟨3, _⟩ => ⟨S64x1, .f32⟩
  | .local _ .vmem, ⟨4, _⟩ => ⟨S64x64, .bf16⟩
  | .local _ .vmem, ⟨5, _⟩ => ⟨S64x1, .f32⟩
  | .local _ .vmem, ⟨6, _⟩ => ⟨S64x64, .bf16⟩
  | .local _ .vmem, ⟨7, _⟩ => ⟨S64x1, .f32⟩
  | .local _ .vmem, ⟨8, _⟩ => ⟨S3x64, .bf16⟩
  | .local _ .vmem, ⟨9, _⟩ => ⟨S3x1, .f32⟩
  | .local _ .vmem, ⟨10, _⟩ => ⟨S3x16384, .f32⟩
  | .local _ .vmem, ⟨11, _⟩ => ⟨S3x16384, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S2097152x32_S32x2097152_1_0 : S2097152x32.Transposes [1, 0] S32x2097152
  shapeCasts_S64_S64x1 : S64.ShapeCasts S64x1
  shapeCasts_S3_S3x1 : S3.ShapeCasts S3x1
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16384 : S3x1.Broadcasts S3x16384
  inb_S3x16384_S3x16384_0_0 : ∀ a, (![0, 0] : Fin 2 → Nat) a + S3x16384.size a ≤ S3x16384.size a
  h_S3x16384 : 0 < S3x16384.numel
  transposes_S3x2097152_S2097152x3_1_0 : S3x2097152.Transposes [1, 0] S2097152x3
  dot_S64x32_S32x16384_S64x16384_1_0_0_1_n_n_wf : DotDims.WF S64x32 S32x16384 S64x16384 [1] [0] [0] [1] [] []
  dot_S64x64_S64x16384_S64x16384_1_0_0_1_n_n_wf : DotDims.WF S64x64 S64x16384 S64x16384 [1] [0] [0] [1] [] []
  dot_S3x64_S64x16384_S3x16384_1_0_0_1_n_n_wf : DotDims.WF S3x64 S64x16384 S3x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x2097152.size a
  hwx0_0 : ∀ i : grid0.Coords, EltTy.bits .bf16 = 32 ∨ (Rect.block (s := S32x2097152) S32x16384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .bf16 = 32 ∨ (Rect.block (s := S64x32) S64x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .bf16 = 32 ∨ (Rect.block (s := S3x64) S3x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x16384.size a ≤ S3x2097152.size a
  hwx0_9 : ∀ i : grid0.Coords, EltTy.bits .f32 = 32 ∨ (Rect.block (s := S3x2097152) S3x16384.size (cc0_transform_9 i) (hinb0_9 i)).WholeWords (EltTy.packing .f32)

variable [Facts₀]

def dot_S64x32_S32x16384_S64x16384_1_0_0_1_n_n : DotDims S64x32 S32x16384 S64x16384 where
  lhsContracting := [1]
  rhsContracting := [0]
  lhsNonContracting := [0]
  rhsNonContracting := [1]
  lhsBatch := []
  rhsBatch := []
  wf := dot_S64x32_S32x16384_S64x16384_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf
def dot_S3x64_S64x16384_S3x16384_1_0_0_1_n_n : DotDims S3x64 S64x16384 S3x16384 where
  lhsContracting := [1]
  rhsContracting := [0]
  lhsNonContracting := [0]
  rhsNonContracting := [1]
  lhsBatch := []
  rhsBatch := []
  wf := dot_S3x64_S64x16384_S3x16384_1_0_0_1_n_n_wf

abbrev win0_0 : Pipeline.Window sig grid0 :=
  Pipeline.Window.ofSpec (Memref.whole main_v1) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S3x16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S64x32 : Shape := ⟨2, ![64, 32]⟩
abbrev S64 : Shape := ⟨1, ![64]⟩
abbrev S64x64 : Shape := ⟨2, ![64, 64]⟩
abbrev S3x64 : Shape := ⟨2, ![3, 64]⟩
abbrev S3 : Shape := ⟨1, ![3]⟩
abbrev S32x64 : Shape := ⟨2, ![32, 64]⟩
abbrev S2097152x64 : Shape := ⟨2, ![2097152, 64]⟩
abbrev S1x64 : Shape := ⟨2, ![1, 64]⟩
abbrev S_ : Shape := ⟨0, ![]⟩
abbrev S64x3 : Shape := ⟨2, ![64, 3]⟩
abbrev S2097152x3 : Shape := ⟨2, ![2097152, 3]⟩
abbrev S1x3 : Shape := ⟨2, ![1, 3]⟩

abbrev nBuf : Space → Nat
  | .hbm => 46
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S64x32, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S3x64, .f32⟩
  | .hbm, ⟨8, _⟩ => ⟨S3, .f32⟩
  | .hbm, ⟨9, _⟩ => ⟨S32x64, .f32⟩
  | .hbm, ⟨10, _⟩ => ⟨S2097152x64, .f32⟩
  | .hbm, ⟨11, _⟩ => ⟨S1x64, .f32⟩
  | .hbm, ⟨12, _⟩ => ⟨S2097152x64, .f32⟩
  | .hbm, ⟨13, _⟩ => ⟨S2097152x64, .f32⟩
  | .hbm, ⟨14, _⟩ => ⟨S_, .f32⟩
  | .hbm, ⟨15, _⟩ => ⟨S2097152x64, .f32⟩
  | .hbm, ⟨16, _⟩ => ⟨S2097152x64, .f32⟩
  | .hbm, ⟨17, _⟩ => ⟨S64x64, .f32⟩
  | .hbm, ⟨18, _⟩ => ⟨S2097152x64, .f32⟩
  | .hbm, ⟨19, _⟩ => ⟨S1x64, .f32⟩
  | .hbm, ⟨20, _⟩ => ⟨S2097152x64, .f32⟩
  | .hbm, ⟨21, _⟩ => ⟨S2097152x64, .f32⟩
  | .hbm, ⟨22, _⟩ => ⟨S_, .f32⟩
  | .hbm, ⟨23, _⟩ => ⟨S2097152x64, .f32⟩
  | .hbm, ⟨24, _⟩ => ⟨S2097152x64, .f32⟩
  | .hbm, ⟨25, _⟩ => ⟨S64x64, .f32⟩
  | .hbm, ⟨26, _⟩ => ⟨S2097152x64, .f32⟩
  | .hbm, ⟨27, _⟩ => ⟨S1x64, .f32⟩
  | .hbm, ⟨28, _⟩ => ⟨S2097152x64, .f32⟩
  | .hbm, ⟨29, _⟩ => ⟨S2097152x64, .f32⟩
  | .hbm, ⟨30, _⟩ => ⟨S_, .f32⟩
  | .hbm, ⟨31, _⟩ => ⟨S2097152x64, .f32⟩
  | .hbm, ⟨32, _⟩ => ⟨S2097152x64, .f32⟩
  | .hbm, ⟨33, _⟩ => ⟨S64x3, .f32⟩
  | .hbm, ⟨34, _⟩ => ⟨S2097152x3, .f32⟩
  | .hbm, ⟨35, _⟩ => ⟨S1x3, .f32⟩
  | .hbm, ⟨36, _⟩ => ⟨S2097152x3, .f32⟩
  | .hbm, ⟨37, _⟩ => ⟨S2097152x3, .f32⟩
  | .hbm, ⟨38, _⟩ => ⟨S2097152x3, .f32⟩
  | .hbm, ⟨39, _⟩ => ⟨S2097152x3, .f32⟩
  | .hbm, ⟨40, _⟩ => ⟨S_, .f32⟩
  | .hbm, ⟨41, _⟩ => ⟨S2097152x3, .f32⟩
  | .hbm, ⟨42, _⟩ => ⟨S2097152x3, .f32⟩
  | .hbm, ⟨43, _⟩ => ⟨S_, .f32⟩
  | .hbm, ⟨44, _⟩ => ⟨S2097152x3, .f32⟩
  | .hbm, ⟨45, _⟩ => ⟨S2097152x3, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  transposes_S64x64_S64x64_1_0 : S64x64.Transposes [1, 0] S64x64
  transposes_S3x64_S64x3_1_0 : S3x64.Transposes [1, 0] S64x3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The function both programs compute, stated once, away from either program.

  One SAMPLE of the input is a vector of 32 features.  The network sends it through three hidden layers
  of 64 units — each unit an affine form of the previous layer's activations followed by the positive part
  `max · 0` — and a last affine layer of 3 units followed by the logistic function `1 / (1 + e^{-z})`.  Over the
  extended reals every operation here is the exact one, a change of float format is the identity, and nothing
  but the commutativity of the product is ever needed to pass from one program's arrangement to the other's.
-/
import Idealize.ShloMosaic.PureOps.Ideal
import Idealize.ShloMosaic.PureOps.Ideal.Laws
import Idealize.ShloMosaic.Lib.ValueIdx

noncomputable section

namespace Mlp

open Idealize.ShloMosaic Idealize.ShloMosaic.ValueIdx

/-- An affine unit: the weights' products with the activations, summed, plus the bias. -/
def affine {K : Nat} (w : Fin K → EReal) (b : EReal) (h : Fin K → EReal) : EReal :=
  (∑ k : Fin K, w k * h k) + b

/-- The same unit with each product's factors in the other order (the activation first): the product of extended
    reals commutes, term by term. -/
theorem affine_comm {K : Nat} (w : Fin K → EReal) (b : EReal) (h : Fin K → EReal) :
    (∑ k : Fin K, h k * w k) + b = affine w b h := by
  unfold affine
  exact congrArg (· + b) (Finset.sum_congr rfl fun k _ => mul_comm _ _)

/-- A hidden layer of `J` units over `K` activations: unit `j` is the positive part of its affine form. -/
def layer {J K : Nat} (W : Fin J → Fin K → EReal) (b : Fin J → EReal) (h : Fin K → EReal) : Fin J → EReal :=
  fun j => max (affine (W j) (b j) h) 0

/-- The network at one sample `x`: output `o` is the logistic function of the last affine unit `o` over the third
    hidden layer's activations. -/
def net (W0 : Fin 64 → Fin 32 → EReal) (b0 : Fin 64 → EReal) (W1 : Fin 64 → Fin 64 → EReal) (b1 : Fin 64 → EReal)
    (W2 : Fin 64 → Fin 64 → EReal) (b2 : Fin 64 → EReal) (W3 : Fin 3 → Fin 64 → EReal) (b3 : Fin 3 → EReal)
    (x : Fin 32 → EReal) (o : Fin 3) : EReal :=
  Ideal.logistic (affine (W3 o) (b3 o) (layer W2 b2 (layer W1 b1 (layer W0 b0 x))))

/-- The network depends on its weights, biases and sample only through their values: families that agree entry by
    entry give the same output. -/
theorem net_congr {W0 W0' : Fin 64 → Fin 32 → EReal} {b0 b0' : Fin 64 → EReal} {W1 W1' : Fin 64 → Fin 64 → EReal}
    {b1 b1' : Fin 64 → EReal} {W2 W2' : Fin 64 → Fin 64 → EReal} {b2 b2' : Fin 64 → EReal} {W3 W3' : Fin 3 → Fin 64 → EReal}
    {b3 b3' : Fin 3 → EReal} {x x' : Fin 32 → EReal}
    (hW0 : ∀ j k, W0 j k = W0' j k) (hb0 : ∀ j, b0 j = b0' j) (hW1 : ∀ j k, W1 j k = W1' j k) (hb1 : ∀ j, b1 j = b1' j)
    (hW2 : ∀ j k, W2 j k = W2' j k) (hb2 : ∀ j, b2 j = b2' j) (hW3 : ∀ j k, W3 j k = W3' j k) (hb3 : ∀ j, b3 j = b3' j)
    (hx : ∀ d, x d = x' d) (o : Fin 3) :
    net W0 b0 W1 b1 W2 b2 W3 b3 x o = net W0' b0' W1' b1' W2' b2' W3' b3' x' o := by
  obtain rfl : W0 = W0' := funext fun j => funext (hW0 j)
  obtain rfl : b0 = b0' := funext hb0
  obtain rfl : W1 = W1' := funext fun j => funext (hW1 j)
  obtain rfl : b1 = b1' := funext hb1
  obtain rfl : W2 = W2' := funext fun j => funext (hW2 j)
  obtain rfl : b2 = b2' := funext hb2
  obtain rfl : W3 = W3' := funext fun j => funext (hW3 j)
  obtain rfl : b3 = b3' := funext hb3
  obtain rfl : x = x' := funext hx
  rfl

/-- A weight matrix stored as a rank-2 array, read as a family of rows. -/
abbrev rows {J K : Nat} (W : FVec Ideal ⟨2, ![J, K]⟩ .f32) : Fin J → Fin K → EReal := fun j k => W (ix2 j k)
/-- A bias stored as a rank-1 array. -/
abbrev vec {J : Nat} (b : FVec Ideal ⟨1, ![J]⟩ .f32) : Fin J → EReal := fun j => b (ix1 j)

/-- THE RESULT, samples along the FIRST axis: entry `(n, o)` is output `o` of the network at sample `n`, row `n` of `x`. -/
def byRows (x : FVec Ideal ⟨2, ![2097152, 32]⟩ .f32) (W0 : FVec Ideal ⟨2, ![64, 32]⟩ .f32) (b0 : FVec Ideal ⟨1, ![64]⟩ .f32)
    (W1 : FVec Ideal ⟨2, ![64, 64]⟩ .f32) (b1 : FVec Ideal ⟨1, ![64]⟩ .f32) (W2 : FVec Ideal ⟨2, ![64, 64]⟩ .f32)
    (b2 : FVec Ideal ⟨1, ![64]⟩ .f32) (W3 : FVec Ideal ⟨2, ![3, 64]⟩ .f32) (b3 : FVec Ideal ⟨1, ![3]⟩ .f32) :
    FVec Ideal ⟨2, ![2097152, 3]⟩ .f32 :=
  fun i => net (rows W0) (vec b0) (rows W1) (vec b1) (rows W2) (vec b2) (rows W3) (vec b3) (fun d => x (ix2 (i 0) d)) (i 1)

/-- The same result with the samples along the SECOND axis (the arrangement the kernel writes before the last
    transposition): entry `(o, n)`. -/
def byCols (x : FVec Ideal ⟨2, ![2097152, 32]⟩ .f32) (W0 : FVec Ideal ⟨2, ![64, 32]⟩ .f32) (b0 : FVec Ideal ⟨1, ![64]⟩ .f32)
    (W1 : FVec Ideal ⟨2, ![64, 64]⟩ .f32) (b1 : FVec Ideal ⟨1, ![64]⟩ .f32) (W2 : FVec Ideal ⟨2, ![64, 64]⟩ .f32)
    (b2 : FVec Ideal ⟨1, ![64]⟩ .f32) (W3 : FVec Ideal ⟨2, ![3, 64]⟩ .f32) (b3 : FVec Ideal ⟨1, ![3]⟩ .f32) :
    FVec Ideal ⟨2, ![3, 2097152]⟩ .f32 :=
  fun i => net (rows W0) (vec b0) (rows W1) (vec b1) (rows W2) (vec b2) (rows W3) (vec b3) (fun d => x (ix2 (i 1) d)) (i 0)

end Mlp

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  The kernel's body as arithmetic.  At one grid point the body holds a block of 16384 samples, one sample per
  COLUMN (32 features down the column), and every weight matrix whole.  It multiplies each weight matrix by the
  current activations (units × samples), adds the bias column to every sample's column, takes the positive part,
  three times over, then a last product and bias and the logistic function.  Read down ONE column `q`, each layer
  is the specification's `Mlp.layer` of that column: that is all this module says.
-/
import proofs.«431267_j11982958756336_3_alg».proof.Proof.Gen.KernelIdeal.Skeleton
import proofs.«431267_j11982958756336_3_alg».proof.Proof.Spec
import proofs.«431267_j11982958756336_3_alg».proof.Proof.LibBroadcastColumn
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The three matrix products, read at an entry

A product of a `[M, K]` matrix with a `[K, 16384]` matrix into a zero accumulator is, at entry `(p, q)`, the sum over
`k` of the left factor's `(p, k)` times the right factor's `(k, q)`: the left operand's coordinates are the output's
row and the contraction position, the right operand's the contraction position and the output's column. -/

/-! ### the first layer's product, 64 units over 32 features -/

theorem lhs0_0 (i : S64x16384.Idx) (q : dot_S64x32_S32x16384_S64x16384_1_0_0_1_n_n.contr.Idx) :
    (dot_S64x32_S32x16384_S64x16384_1_0_0_1_n_n.lhsIdx i q 0).val = (i 0).val := by
  unfold DotDims.lhsIdx
  rw [dif_neg (show ¬(0 : Fin S64x32.rank) ∈ dot_S64x32_S32x16384_S64x16384_1_0_0_1_n_n.lhsBatch by decide), dif_pos (show (0 : Fin S64x32.rank) ∈ dot_S64x32_S32x16384_S64x16384_1_0_0_1_n_n.lhsNonContracting by decide)]
  rfl
theorem lhs0_1 (i : S64x16384.Idx) (q : dot_S64x32_S32x16384_S64x16384_1_0_0_1_n_n.contr.Idx) :
    (dot_S64x32_S32x16384_S64x16384_1_0_0_1_n_n.lhsIdx i q 1).val = (q ⟨0, by decide⟩).val :=
  dot_S64x32_S32x16384_S64x16384_1_0_0_1_n_n.lhsIdx_val_of_single rfl i q
theorem rhs0_0 (i : S64x16384.Idx) (q : dot_S64x32_S32x16384_S64x16384_1_0_0_1_n_n.contr.Idx) :
    (dot_S64x32_S32x16384_S64x16384_1_0_0_1_n_n.rhsIdx i q 0).val = (q ⟨0, by decide⟩).val :=
  dot_S64x32_S32x16384_S64x16384_1_0_0_1_n_n.rhsIdx_val_of_single rfl i q
theorem rhs0_1 (i : S64x16384.Idx) (q : dot_S64x32_S32x16384_S64x16384_1_0_0_1_n_n.contr.Idx) :
    (dot_S64x32_S32x16384_S64x16384_1_0_0_1_n_n.rhsIdx i q 1).val = (i 1).val := by
  unfold DotDims.rhsIdx
  rw [dif_neg (show ¬(1 : Fin S32x16384.rank) ∈ dot_S64x32_S32x16384_S64x16384_1_0_0_1_n_n.rhsBatch by decide), dif_pos (show (1 : Fin S32x16384.rank) ∈ dot_S64x32_S32x16384_S64x16384_1_0_0_1_n_n.rhsNonContracting by decide)]
  rfl

/-- Entry `(p, q)` of the product into the zero accumulator: `∑ k, l (p, k) · r (k, q)`. -/
theorem product0_apply (l : FVec Ideal S64x32 .bf16) (r : FVec Ideal S32x16384 .bf16) (p : Fin 64) (q : Fin 16384) :
    matmul dot_S64x32_S32x16384_S64x16384_1_0_0_1_n_n none l r (constant (F := Ideal) S64x16384 .f32 0x00000000#32) (ix2 p q)
      = ∑ k : Fin 32, l (ix2 p k) * r (ix2 k q) := by
  simp only [matmul]
  rw [Ideal.matmul_constant_zero_apply, ← Equiv.sum_comp (contrEquiv1 dot_S64x32_S32x16384_S64x16384_1_0_0_1_n_n 32 rfl rfl).symm]
  refine Finset.sum_congr rfl fun k _ => ?_
  have hk := contrEquiv1_symm_val dot_S64x32_S32x16384_S64x16384_1_0_0_1_n_n 32 rfl rfl k
  have el : dot_S64x32_S32x16384_S64x16384_1_0_0_1_n_n.lhsIdx (ix2 p q) ((contrEquiv1 dot_S64x32_S32x16384_S64x16384_1_0_0_1_n_n 32 rfl rfl).symm k) = ix2 p k := funext fun a => Fin.ext (by
    match a with
    | ⟨0, _⟩ => exact lhs0_0 _ _
    | ⟨1, _⟩ => exact (lhs0_1 _ _).trans hk)
  have er : dot_S64x32_S32x16384_S64x16384_1_0_0_1_n_n.rhsIdx (ix2 p q) ((contrEquiv1 dot_S64x32_S32x16384_S64x16384_1_0_0_1_n_n 32 rfl rfl).symm k) = ix2 k q := funext fun a => Fin.ext (by
    match a with
    | ⟨0, _⟩ => exact (rhs0_0 _ _).trans hk
    | ⟨1, _⟩ => exact rhs0_1 _ _)
  rw [el, er]

/-! ### a middle layer's product, 64 units over 64 activations -/

theorem lhs1_0 (i : S64x16384.Idx) (q : dot_S64x64_S64x16384_S64x16384_1_0_0_1_n_n.contr.Idx) :
    (dot_S64x64_S64x16384_S64x16384_1_0_0_1_n_n.lhsIdx i q 0).val = (i 0).val := by
  unfold DotDims.lhsIdx
  rw [dif_neg (show ¬(0 : Fin S64x64.rank) ∈ dot_S64x64_S64x16384_S64x16384_1_0_0_1_n_n.lhsBatch by decide), dif_pos (show (0 : Fin S64x64.rank) ∈ dot_S64x64_S64x16384_S64x16384_1_0_0_1_n_n.lhsNonContracting by decide)]
  rfl
theorem lhs1_1 (i : S64x16384.Idx) (q : dot_S64x64_S64x16384_S64x16384_1_0_0_1_n_n.contr.Idx) :
    (dot_S64x64_S64x16384_S64x16384_1_0_0_1_n_n.lhsIdx i q 1).val = (q ⟨0, by decide⟩).val :=
  dot_S64x64_S64x16384_S64x16384_1_0_0_1_n_n.lhsIdx_val_of_single rfl i q
theorem rhs1_0 (i : S64x16384.Idx) (q : dot_S64x64_S64x16384_S64x16384_1_0_0_1_n_n.contr.Idx) :
    (dot_S64x64_S64x16384_S64x16384_1_0_0_1_n_n.rhsIdx i q 0).val = (q ⟨0, by decide⟩).val :=
  dot_S64x64_S64x16384_S64x16384_1_0_0_1_n_n.rhsIdx_val_of_single rfl i q
theorem rhs1_1 (i : S64x16384.Idx) (q : dot_S64x64_S64x16384_S64x16384_1_0_0_1_n_n.contr.Idx) :
    (dot_S64x64_S64x16384_S64x16384_1_0_0_1_n_n.rhsIdx i q 1).val = (i 1).val := by
  unfold DotDims.rhsIdx
  rw [dif_neg (show ¬(1 : Fin S64x16384.rank) ∈ dot_S64x64_S64x16384_S64x16384_1_0_0_1_n_n.rhsBatch by decide), dif_pos (show (1 : Fin S64x16384.rank) ∈ dot_S64x64_S64x16384_S64x16384_1_0_0_1_n_n.rhsNonContracting by decide)]
  rfl

/-- Entry `(p, q)` of the product into the zero accumulator: `∑ k, l (p, k) · r (k, q)`. -/
theorem product1_apply (l : FVec Ideal S64x64 .bf16) (r : FVec Ideal S64x16384 .bf16) (p : Fin 64) (q : Fin 16384) :
    matmul dot_S64x64_S64x16384_S64x16384_1_0_0_1_n_n none l r (constant (F := Ideal) S64x16384 .f32 0x00000000#32) (ix2 p q)
      = ∑ k : Fin 64, l (ix2 p k) * r (ix2 k q) := by
  simp only [matmul]
  rw [Ideal.matmul_constant_zero_apply, ← Equiv.sum_comp (contrEquiv1 dot_S64x64_S64x16384_S64x16384_1_0_0_1_n_n 64 rfl rfl).symm]
  refine Finset.sum_congr rfl fun k _ => ?_
  have hk := contrEquiv1_symm_val dot_S64x64_S64x16384_S64x16384_1_0_0_1_n_n 64 rfl rfl k
  have el : dot_S64x64_S64x16384_S64x16384_1_0_0_1_n_n.lhsIdx (ix2 p q) ((contrEquiv1 dot_S64x64_S64x16384_S64x16384_1_0_0_1_n_n 64 rfl rfl).symm k) = ix2 p k := funext fun a => Fin.ext (by
    match a with
    | ⟨0, _⟩ => exact lhs1_0 _ _
    | ⟨1, _⟩ => exact (lhs1_1 _ _).trans hk)
  have er : dot_S64x64_S64x16384_S64x16384_1_0_0_1_n_n.rhsIdx (ix2 p q) ((contrEquiv1 dot_S64x64_S64x16384_S64x16384_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-! ### the last layer's product, 3 units over 64 activations -/

theorem lhs2_0 (i : S3x16384.Idx) (q : dot_S3x64_S64x16384_S3x16384_1_0_0_1_n_n.contr.Idx) :
    (dot_S3x64_S64x16384_S3x16384_1_0_0_1_n_n.lhsIdx i q 0).val = (i 0).val := by
  unfold DotDims.lhsIdx
  rw [dif_neg (show ¬(0 : Fin S3x64.rank) ∈ dot_S3x64_S64x16384_S3x16384_1_0_0_1_n_n.lhsBatch by decide), dif_pos (show (0 : Fin S3x64.rank) ∈ dot_S3x64_S64x16384_S3x16384_1_0_0_1_n_n.lhsNonContracting by decide)]
  rfl
theorem lhs2_1 (i : S3x16384.Idx) (q : dot_S3x64_S64x16384_S3x16384_1_0_0_1_n_n.contr.Idx) :
    (dot_S3x64_S64x16384_S3x16384_1_0_0_1_n_n.lhsIdx i q 1).val = (q ⟨0, by decide⟩).val :=
  dot_S3x64_S64x16384_S3x16384_1_0_0_1_n_n.lhsIdx_val_of_single rfl i q
theorem rhs2_0 (i : S3x16384.Idx) (q : dot_S3x64_S64x16384_S3x16384_1_0_0_1_n_n.contr.Idx) :
    (dot_S3x64_S64x16384_S3x16384_1_0_0_1_n_n.rhsIdx i q 0).val = (q ⟨0, by decide⟩).val :=
  dot_S3x64_S64x16384_S3x16384_1_0_0_1_n_n.rhsIdx_val_of_single rfl i q
theorem rhs2_1 (i : S3x16384.Idx) (q : dot_S3x64_S64x16384_S3x16384_1_0_0_1_n_n.contr.Idx) :
    (dot_S3x64_S64x16384_S3x16384_1_0_0_1_n_n.rhsIdx i q 1).val = (i 1).val := by
  unfold DotDims.rhsIdx
  rw [dif_neg (show ¬(1 : Fin S64x16384.rank) ∈ dot_S3x64_S64x16384_S3x16384_1_0_0_1_n_n.rhsBatch by decide), dif_pos (show (1 : Fin S64x16384.rank) ∈ dot_S3x64_S64x16384_S3x16384_1_0_0_1_n_n.rhsNonContracting by decide)]
  rfl

/-- Entry `(p, q)` of the product into the zero accumulator: `∑ k, l (p, k) · r (k, q)`. -/
theorem product2_apply (l : FVec Ideal S3x64 .bf16) (r : FVec Ideal S64x16384 .bf16) (p : Fin 3) (q : Fin 16384) :
    matmul dot_S3x64_S64x16384_S3x16384_1_0_0_1_n_n none l r (constant (F := Ideal) S3x16384 .f32 0x00000000#32) (ix2 p q)
      = ∑ k : Fin 64, l (ix2 p k) * r (ix2 k q) := by
  simp only [matmul]
  rw [Ideal.matmul_constant_zero_apply, ← Equiv.sum_comp (contrEquiv1 dot_S3x64_S64x16384_S3x16384_1_0_0_1_n_n 64 rfl rfl).symm]
  refine Finset.sum_congr rfl fun k _ => ?_
  have hk := contrEquiv1_symm_val dot_S3x64_S64x16384_S3x16384_1_0_0_1_n_n 64 rfl rfl k
  have el : dot_S3x64_S64x16384_S3x16384_1_0_0_1_n_n.lhsIdx (ix2 p q) ((contrEquiv1 dot_S3x64_S64x16384_S3x16384_1_0_0_1_n_n 64 rfl rfl).symm k) = ix2 p k := funext fun a => Fin.ext (by
    match a with
    | ⟨0, _⟩ => exact lhs2_0 _ _
    | ⟨1, _⟩ => exact (lhs2_1 _ _).trans hk)
  have er : dot_S3x64_S64x16384_S3x16384_1_0_0_1_n_n.rhsIdx (ix2 p q) ((contrEquiv1 dot_S3x64_S64x16384_S3x16384_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The layers of the body -/

/-- The first hidden layer over a block of samples `x` (features × samples): weights times samples, plus the bias
    column, positive part. -/
def first (w : Vec Ideal S64x32 .bf16) (c : Vec Ideal S64x1 .f32) (x : Vec Ideal S32x16384 .bf16) : FVec Ideal S64x16384 .f32 :=
  maximumf (addf (matmul dot_S64x32_S32x16384_S64x16384_1_0_0_1_n_n none (shapeCast S64x32 w shapeCasts_S64x32_S64x32 : FVec Ideal S64x32 .bf16)
      (shapeCast S32x16384 x shapeCasts_S32x16384_S32x16384 : FVec Ideal S32x16384 .bf16) (constant S64x16384 .f32 0x00000000#32))
    (broadcastTo S64x16384 (shapeCast S64x1 c shapeCasts_S64x1_S64x1 : FVec Ideal S64x1 .f32) broadcasts_S64x1_S64x16384))
    (broadcast S64x16384 (Scalar.ofBits .f32 0x00000000#32))

/-- A later hidden layer over the previous layer's activations `h` (units × samples); the change of float format
    in front of the product is the identity here. -/
def later (w : Vec Ideal S64x64 .bf16) (c : Vec Ideal S64x1 .f32) (h : FVec Ideal S64x16384 .f32) : FVec Ideal S64x16384 .f32 :=
  maximumf (addf (matmul dot_S64x64_S64x16384_S64x16384_1_0_0_1_n_n none (shapeCast S64x64 w shapeCasts_S64x64_S64x64 : FVec Ideal S64x64 .bf16)
      (truncf .bf16 h bitsLt_bf16_f32) (constant S64x16384 .f32 0x00000000#32))
    (broadcastTo S64x16384 (shapeCast S64x1 c shapeCasts_S64x1_S64x1 : FVec Ideal S64x1 .f32) broadcasts_S64x1_S64x16384))
    (broadcast S64x16384 (Scalar.ofBits .f32 0x00000000#32))

/-- The output layer over the third hidden layer's activations: product, bias column, logistic function. -/
def last (w : Vec Ideal S3x64 .bf16) (c : Vec Ideal S3x1 .f32) (h : FVec Ideal S64x16384 .f32) : FVec Ideal S3x16384 .f32 :=
  logistic (addf (matmul dot_S3x64_S64x16384_S3x16384_1_0_0_1_n_n none (shapeCast S3x64 w shapeCasts_S3x64_S3x64 : FVec Ideal S3x64 .bf16)
      (truncf .bf16 h bitsLt_bf16_f32) (constant S3x16384 .f32 0x00000000#32))
    (broadcastTo S3x16384 (shapeCast S3x1 c shapeCasts_S3x1_S3x1 : FVec Ideal S3x1 .f32) broadcasts_S3x1_S3x16384))

/-- What the body stores is the four layers composed (the body's own operations, regrouped). -/
theorem stored_eq (x0 : Vec Ideal S32x16384 .bf16) (w0 : Vec Ideal S64x32 .bf16) (c0 : Vec Ideal S64x1 .f32)
    (w1 : Vec Ideal S64x64 .bf16) (c1 : Vec Ideal S64x1 .f32) (w2 : Vec Ideal S64x64 .bf16) (c2 : Vec Ideal S64x1 .f32)
    (w3 : Vec Ideal S3x64 .bf16) (c3 : Vec Ideal S3x1 .f32) :
    k0_pay1 (F := Ideal) (k0_pay2 x0 w0 c0 w1 c1 w2 c2 w3) c3 = last w3 c3 (later w2 c2 (later w1 c1 (first w0 c0 x0))) := rfl

/-! ## Each layer down one column -/

/-- Column `q` of the first layer is the specification's layer of sample `q`'s features. -/
theorem first_col (w : Vec Ideal S64x32 .bf16) (c : Vec Ideal S64x1 .f32) (x : Vec Ideal S32x16384 .bf16) (q : Fin 16384) :
    (fun j : Fin 64 => first w c x (ix2 j q))
      = Mlp.layer (fun j d => w (ix2 j d)) (fun j => c (ix2 j (0 : Fin 1))) (fun d => x (ix2 d q)) := by
  funext j
  unfold first Mlp.layer Mlp.affine
  rw [maximumf_apply, addf_apply, product0_apply, broadcastTo_a1_ab_apply, shapeCast_self, shapeCast_self, shapeCast_self]
  rw [broadcast_apply, Ideal.ofBits_def, Ideal.ofBits_zero_f32]

/-- Column `q` of a later layer is the specification's layer of column `q` of the activations it is given. -/
theorem later_col (w : Vec Ideal S64x64 .bf16) (c : Vec Ideal S64x1 .f32) (h : FVec Ideal S64x16384 .f32) (q : Fin 16384) :
    (fun j : Fin 64 => later w c h (ix2 j q))
      = Mlp.layer (fun j k => w (ix2 j k)) (fun j => c (ix2 j (0 : Fin 1))) (fun k => h (ix2 k q)) := by
  funext j
  unfold later Mlp.layer Mlp.affine
  rw [maximumf_apply, addf_apply, product1_apply, broadcastTo_a1_ab_apply, shapeCast_self, shapeCast_self,
    broadcast_apply, Ideal.ofBits_def, Ideal.ofBits_zero_f32]
  rfl

/-- Entry `(o, q)` of the output layer: the logistic function of unit `o`'s affine form over column `q`. -/
theorem last_apply (w : Vec Ideal S3x64 .bf16) (c : Vec Ideal S3x1 .f32) (h : FVec Ideal S64x16384 .f32) (o : Fin 3) (q : Fin 16384) :
    last w c h (ix2 o q)
      = Ideal.logistic (Mlp.affine (fun k => w (ix2 o k)) (c (ix2 o (0 : Fin 1))) (fun k => h (ix2 k q))) := by
  unfold last Mlp.affine
  rw [show ∀ v : FVec Ideal S3x16384 .f32, logistic v (ix2 o q) = Ideal.logistic (v (ix2 o q)) from fun _ => rfl,
    addf_apply, product2_apply, broadcastTo_a1_ab_apply, shapeCast_self, shapeCast_self]
  rfl

/-- WHAT THE BODY STORES, entry `(o, q)`: output `o` of the network at the sample in column `q` of the block, over
    the weight and bias blocks as the body loaded them. -/
theorem stored_apply (x0 : Vec Ideal S32x16384 .bf16) (w0 : Vec Ideal S64x32 .bf16) (c0 : Vec Ideal S64x1 .f32)
    (w1 : Vec Ideal S64x64 .bf16) (c1 : Vec Ideal S64x1 .f32) (w2 : Vec Ideal S64x64 .bf16) (c2 : Vec Ideal S64x1 .f32)
    (w3 : Vec Ideal S3x64 .bf16) (c3 : Vec Ideal S3x1 .f32) (o : Fin 3) (q : Fin 16384) :
    k0_pay1 (F := Ideal) (k0_pay2 x0 w0 c0 w1 c1 w2 c2 w3) c3 (ix2 o q)
      = Mlp.net (fun j d => w0 (ix2 j d)) (fun j => c0 (ix2 j (0 : Fin 1))) (fun j k => w1 (ix2 j k)) (fun j => c1 (ix2 j (0 : Fin 1)))
          (fun j k => w2 (ix2 j k)) (fun j => c2 (ix2 j (0 : Fin 1))) (fun j k => w3 (ix2 j k)) (fun j => c3 (ix2 j (0 : Fin 1)))
          (fun d => x0 (ix2 d q)) o := by
  rw [stored_eq, last_apply, later_col, later_col, first_col]
  rfl

end Cert.KernelIdeal.Body

end
-- ==== Proof.KernelArrays.lean ====
/-
  What the region finds, and what each grid point is handed.

  Before the region the host lays the inputs out for the kernel: the samples transposed, one sample per column
  (`[32, 2097152]`), every matrix in the narrower float format — the identity on the extended reals —, every bias
  reshaped to a column (`[J] → [J, 1]`).  Point `t` of the 128 is handed columns `16384 t … 16384 t + 16383` of the
  samples and every weight matrix and bias column whole.  So, entry by entry, each block the body loads is an entry
  of an argument array: that is what this module proves.
-/
import proofs.«431267_j11982958756336_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The arrays as the region finds them -/

/-- The samples, transposed: one sample per column. -/
theorem V_v1 (c : Dev nD) : (V m c main_v1 : S32x2097152.Idx → EReal)
    = transpose S32x2097152 [1, 0] (truncf .bf16 (m ((c : Thread nD τ).loc main_arg0) : FVec Ideal S2097152x32 .f32) bitsLt_bf16_f32 : FVec Ideal S2097152x32 .bf16) transposes_S2097152x32_S32x2097152_1_0 := by
  show StableHlo.after hostOps0 (fun b => m (c, b)) (Proc.devRef .tc main_v1) = _
  after_results

/-- Entry `(d, n)` of the transposed samples is feature `d` of sample `n`. -/
theorem V_v1_apply (c : Dev nD) (d : Fin 32) (n : Fin 2097152) :
    (V m c main_v1 : S32x2097152.Idx → EReal) (ix2 d n) = (m ((c : Thread nD τ).loc main_arg0) : FVec Ideal S2097152x32 .f32) (ix2 n d) := by
  rw [V_v1, transpose_ix2_apply]
  rfl

/-- The weight matrix `W0` in the narrower format: the same extended reals. -/
theorem V_v2 (c : Dev nD) : (V m c main_v2 : S64x32.Idx → EReal)
    = (truncf .bf16 (m ((c : Thread nD τ).loc main_arg1) : FVec Ideal S64x32 .f32) bitsLt_bf16_f32 : FVec Ideal S64x32 .bf16) := by
  show StableHlo.after hostOps0 (fun b => m (c, b)) (Proc.devRef .tc main_v2) = _
  after_results

/-- The weight matrix `W1` in the narrower format: the same extended reals. -/
theorem V_v3 (c : Dev nD) : (V m c main_v3 : S64x64.Idx → EReal)
    = (truncf .bf16 (m ((c : Thread nD τ).loc main_arg3) : FVec Ideal S64x64 .f32) bitsLt_bf16_f32 : FVec Ideal S64x64 .bf16) := by
  show StableHlo.after hostOps0 (fun b => m (c, b)) (Proc.devRef .tc main_v3) = _
  after_results

/-- The weight matrix `W2` in the narrower format: the same extended reals. -/
theorem V_v4 (c : Dev nD) : (V m c main_v4 : S64x64.Idx → EReal)
    = (truncf .bf16 (m ((c : Thread nD τ).loc main_arg5) : FVec Ideal S64x64 .f32) bitsLt_bf16_f32 : FVec Ideal S64x64 .bf16) := by
  show StableHlo.after hostOps0 (fun b => m (c, b)) (Proc.devRef .tc main_v4) = _
  after_results

/-- The weight matrix `W3` in the narrower format: the same extended reals. -/
theorem V_v5 (c : Dev nD) : (V m c main_v5 : S3x64.Idx → EReal)
    = (truncf .bf16 (m ((c : Thread nD τ).loc main_arg7) : FVec Ideal S3x64 .f32) bitsLt_bf16_f32 : FVec Ideal S3x64 .bf16) := by
  show StableHlo.after hostOps0 (fun b => m (c, b)) (Proc.devRef .tc main_v5) = _
  after_results

/-- The bias `b0` as a column. -/
theorem V_v6 (c : Dev nD) : (V m c main_v6 : S64x1.Idx → EReal)
    = shapeCast S64x1 (m ((c : Thread nD τ).loc main_arg2) : FVec Ideal S64 .f32) shapeCasts_S64_S64x1 := by
  show StableHlo.after hostOps0 (fun b => m (c, b)) (Proc.devRef .tc main_v6) = _
  after_results
  rfl

/-- Its entry `(j, 0)` is entry `j` of the bias. -/
theorem V_v6_apply (c : Dev nD) (j : Fin 64) :
    (V m c main_v6 : S64x1.Idx → EReal) (ix2 j (0 : Fin 1)) = (m ((c : Thread nD τ).loc main_arg2) : FVec Ideal S64 .f32) (ix1 j) := by
  rw [V_v6]
  exact shapeCast_apply _ shapeCasts_S64_S64x1 (ix2 j (0 : Fin 1)) (ix1 j) (by
    rw [Shape.rowMajor_val_one, Shape.rowMajor_val_two]
    show j.val = j.val * 1 + 0
    omega)

/-- The bias `b1` as a column. -/
theorem V_v7 (c : Dev nD) : (V m c main_v7 : S64x1.Idx → EReal)
    = shapeCast S64x1 (m ((c : Thread nD τ).loc main_arg4) : FVec Ideal S64 .f32) shapeCasts_S64_S64x1 := by
  show StableHlo.after hostOps0 (fun b => m (c, b)) (Proc.devRef .tc main_v7) = _
  after_results
  rfl

/-- Its entry `(j, 0)` is entry `j` of the bias. -/
theorem V_v7_apply (c : Dev nD) (j : Fin 64) :
    (V m c main_v7 : S64x1.Idx → EReal) (ix2 j (0 : Fin 1)) = (m ((c : Thread nD τ).loc main_arg4) : FVec Ideal S64 .f32) (ix1 j) := by
  rw [V_v7]
  exact shapeCast_apply _ shapeCasts_S64_S64x1 (ix2 j (0 : Fin 1)) (ix1 j) (by
    rw [Shape.rowMajor_val_one, Shape.rowMajor_val_two]
    show j.val = j.val * 1 + 0
    omega)

/-- The bias `b2` as a column. -/
theorem V_v8 (c : Dev nD) : (V m c main_v8 : S64x1.Idx → EReal)
    = shapeCast S64x1 (m ((c : Thread nD τ).loc main_arg6) : FVec Ideal S64 .f32) shapeCasts_S64_S64x1 := by
  show StableHlo.after hostOps0 (fun b => m (c, b)) (Proc.devRef .tc main_v8) = _
  after_results
  rfl

/-- Its entry `(j, 0)` is entry `j` of the bias. -/
theorem V_v8_apply (c : Dev nD) (j : Fin 64) :
    (V m c main_v8 : S64x1.Idx → EReal) (ix2 j (0 : Fin 1)) = (m ((c : Thread nD τ).loc main_arg6) : FVec Ideal S64 .f32) (ix1 j) := by
  rw [V_v8]
  exact shapeCast_apply _ shapeCasts_S64_S64x1 (ix2 j (0 : Fin 1)) (ix1 j) (by
    rw [Shape.rowMajor_val_one, Shape.rowMajor_val_two]
    show j.val = j.val * 1 + 0
    omega)

/-- The bias `b3` as a column. -/
theorem V_v9 (c : Dev nD) : (V m c main_v9 : S3x1.Idx → EReal)
    = shapeCast S3x1 (m ((c : Thread nD τ).loc main_arg8) : FVec Ideal S3 .f32) shapeCasts_S3_S3x1 := by
  show StableHlo.after hostOps0 (fun b => m (c, b)) (Proc.devRef .tc main_v9) = _
  after_results
  rfl

/-- Its entry `(j, 0)` is entry `j` of the bias. -/
theorem V_v9_apply (c : Dev nD) (j : Fin 3) :
    (V m c main_v9 : S3x1.Idx → EReal) (ix2 j (0 : Fin 1)) = (m ((c : Thread nD τ).loc main_arg8) : FVec Ideal S3 .f32) (ix1 j) := by
  rw [V_v9]
  exact shapeCast_apply _ shapeCasts_S3_S3x1 (ix2 j (0 : Fin 1)) (ix1 j) (by
    rw [Shape.rowMajor_val_one, Shape.rowMajor_val_two]
    show j.val = j.val * 1 + 0
    omega)

/-! ## The index maps, decided over the 128 points -/

/-- The samples' window moves one block of 16384 columns per point. -/
theorem idx0_0 : ∀ t : Fin cfg0.N, win0_0.index t (0 : Fin 2) = 0 ∧ win0_0.index t (1 : Fin 2) = t.val :=
  (by decide +kernel : ∀ t : Fin grid0.N, _)
/-- So does the output's. -/
theorem idx0_9 : ∀ t : Fin cfg0.N, win0_9.index t (0 : Fin 2) = 0 ∧ win0_9.index t (1 : Fin 2) = t.val :=
  (by decide +kernel : ∀ t : Fin grid0.N, _)
/-- Window 1 stays on its one block. -/
theorem idx0_1 : ∀ t : Fin cfg0.N, win0_1.index t (0 : Fin 2) = 0 ∧ win0_1.index t (1 : Fin 2) = 0 :=
  (by decide +kernel : ∀ t : Fin grid0.N, _)
/-- Window 2 stays on its one block. -/
theorem idx0_2 : ∀ t : Fin cfg0.N, win0_2.index t (0 : Fin 2) = 0 ∧ win0_2.index t (1 : Fin 2) = 0 :=
  (by decide +kernel : ∀ t : Fin grid0.N, _)
/-- Window 3 stays on its one block. -/
theorem idx0_3 : ∀ t : Fin cfg0.N, win0_3.index t (0 : Fin 2) = 0 ∧ win0_3.index t (1 : Fin 2) = 0 :=
  (by decide +kernel : ∀ t : Fin grid0.N, _)
/-- Window 4 stays on its one block. -/
theorem idx0_4 : ∀ t : Fin cfg0.N, win0_4.index t (0 : Fin 2) = 0 ∧ win0_4.index t (1 : Fin 2) = 0 :=
  (by decide +kernel : ∀ t : Fin grid0.N, _)
/-- Window 5 stays on its one block. -/
theorem idx0_5 : ∀ t : Fin cfg0.N, win0_5.index t (0 : Fin 2) = 0 ∧ win0_5.index t (1 : Fin 2) = 0 :=
  (by decide +kernel : ∀ t : Fin grid0.N, _)
/-- Window 6 stays on its one block. -/
theorem idx0_6 : ∀ t : Fin cfg0.N, win0_6.index t (0 : Fin 2) = 0 ∧ win0_6.index t (1 : Fin 2) = 0 :=
  (by decide +kernel : ∀ t : Fin grid0.N, _)
/-- Window 7 stays on its one block. -/
theorem idx0_7 : ∀ t : Fin cfg0.N, win0_7.index t (0 : Fin 2) = 0 ∧ win0_7.index t (1 : Fin 2) = 0 :=
  (by decide +kernel : ∀ t : Fin grid0.N, _)
/-- Window 8 stays on its one block. -/
theorem idx0_8 : ∀ t : Fin cfg0.N, win0_8.index t (0 : Fin 2) = 0 ∧ win0_8.index t (1 : Fin 2) = 0 :=
  (by decide +kernel : ∀ t : Fin grid0.N, _)

/-! ## The blocks a point is handed -/

/-- The samples' block at point `t`: entry `(d, q)` is feature `d` of sample `16384 t + q`. -/
theorem xblk_apply (c : Dev nD) (t : Fin cfg0.N) (d : Fin 32) (q : Fin 16384) (n : Fin 2097152) (hn : n.val = t.val * 16384 + q.val) :
    (iblk m c 0 t : Vec Ideal S32x16384 .bf16) (ix2 d q) = (m ((c : Thread nD τ).loc main_arg0) : FVec Ideal S2097152x32 .f32) (ix2 n d) := by
  obtain ⟨i0, i1⟩ := idx0_0 t
  unfold iblk
  rw [View.read_apply]
  show (V m c main_v1 : S32x2097152.Idx → EReal) (((cfg0.win 0).blk t).view.emb (ix2 d q)) = _
  have e : ((cfg0.win 0).blk t).view.emb (ix2 d q) = (ix2 d n : S32x2097152.Idx) := by
    funext a; apply Fin.ext
    match a with
    | ⟨0, _⟩ => show win0_0.index t (0 : Fin 2) * 32 + 1 * d.val = d.val; rw [i0]; omega
    | ⟨1, _⟩ => show win0_0.index t (1 : Fin 2) * 16384 + 1 * q.val = n.val; rw [i1, hn]; omega
  rw [e, V_v1_apply]

/-- The block of `W0` at any point is the whole matrix. -/
theorem blk1_apply (c : Dev nD) (t : Fin cfg0.N) (j : Fin 64) (k : Fin 32) :
    (iblk m c 1 t : Vec Ideal S64x32 .bf16) (ix2 j k) = (m ((c : Thread nD τ).loc main_arg1) : FVec Ideal S64x32 .f32) (ix2 j k) := by
  obtain ⟨i0, i1⟩ := idx0_1 t
  unfold iblk
  rw [View.read_apply]
  show (V m c main_v2 : S64x32.Idx → EReal) (((cfg0.win 1).blk t).view.emb (ix2 j k)) = _
  have e : ((cfg0.win 1).blk t).view.emb (ix2 j k) = (ix2 j k : S64x32.Idx) := by
    funext a; apply Fin.ext
    match a with
    | ⟨0, _⟩ => show win0_1.index t (0 : Fin 2) * 64 + 1 * j.val = j.val; rw [i0]; omega
    | ⟨1, _⟩ => show win0_1.index t (1 : Fin 2) * 32 + 1 * k.val = k.val; rw [i1]; omega
  rw [e, V_v2]
  rfl

/-- The block of `W1` at any point is the whole matrix. -/
theorem blk3_apply (c : Dev nD) (t : Fin cfg0.N) (j : Fin 64) (k : Fin 64) :
    (iblk m c 3 t : Vec Ideal S64x64 .bf16) (ix2 j k) = (m ((c : Thread nD τ).loc main_arg3) : FVec Ideal S64x64 .f32) (ix2 j k) := by
  obtain ⟨i0, i1⟩ := idx0_3 t
  unfold iblk
  rw [View.read_apply]
  show (V m c main_v3 : S64x64.Idx → EReal) (((cfg0.win 3).blk t).view.emb (ix2 j k)) = _
  have e : ((cfg0.win 3).blk t).view.emb (ix2 j k) = (ix2 j k : S64x64.Idx) := by
    funext a; apply Fin.ext
    match a with
    | ⟨0, _⟩ => show win0_3.index t (0 : Fin 2) * 64 + 1 * j.val = j.val; rw [i0]; omega
    | ⟨1, _⟩ => show win0_3.index t (1 : Fin 2) * 64 + 1 * k.val = k.val; rw [i1]; omega
  rw [e, V_v3]
  rfl

/-- The block of `W2` at any point is the whole matrix. -/
theorem blk5_apply (c : Dev nD) (t : Fin cfg0.N) (j : Fin 64) (k : Fin 64) :
    (iblk m c 5 t : Vec Ideal S64x64 .bf16) (ix2 j k) = (m ((c : Thread nD τ).loc main_arg5) : FVec Ideal S64x64 .f32) (ix2 j k) := by
  obtain ⟨i0, i1⟩ := idx0_5 t
  unfold iblk
  rw [View.read_apply]
  show (V m c main_v4 : S64x64.Idx → EReal) (((cfg0.win 5).blk t).view.emb (ix2 j k)) = _
  have e : ((cfg0.win 5).blk t).view.emb (ix2 j k) = (ix2 j k : S64x64.Idx) := by
    funext a; apply Fin.ext
    match a with
    | ⟨0, _⟩ => show win0_5.index t (0 : Fin 2) * 64 + 1 * j.val = j.val; rw [i0]; omega
    | ⟨1, _⟩ => show win0_5.index t (1 : Fin 2) * 64 + 1 * k.val = k.val; rw [i1]; omega
  rw [e, V_v4]
  rfl

/-- The block of `W3` at any point is the whole matrix. -/
theorem blk7_apply (c : Dev nD) (t : Fin cfg0.N) (j : Fin 3) (k : Fin 64) :
    (iblk m c 7 t : Vec Ideal S3x64 .bf16) (ix2 j k) = (m ((c : Thread nD τ).loc main_arg7) : FVec Ideal S3x64 .f32) (ix2 j k) := by
  obtain ⟨i0, i1⟩ := idx0_7 t
  unfold iblk
  rw [View.read_apply]
  show (V m c main_v5 : S3x64.Idx → EReal) (((cfg0.win 7).blk t).view.emb (ix2 j k)) = _
  have e : ((cfg0.win 7).blk t).view.emb (ix2 j k) = (ix2 j k : S3x64.Idx) := by
    funext a; apply Fin.ext
    match a with
    | ⟨0, _⟩ => show win0_7.index t (0 : Fin 2) * 3 + 1 * j.val = j.val; rw [i0]; omega
    | ⟨1, _⟩ => show win0_7.index t (1 : Fin 2) * 64 + 1 * k.val = k.val; rw [i1]; omega
  rw [e, V_v5]
  rfl

/-- The block of `b0` at any point is the whole bias column. -/
theorem blk2_apply (c : Dev nD) (t : Fin cfg0.N) (j : Fin 64) :
    (iblk m c 2 t : Vec Ideal S64x1 .f32) (ix2 j (0 : Fin 1)) = (m ((c : Thread nD τ).loc main_arg2) : FVec Ideal S64 .f32) (ix1 j) := by
  obtain ⟨i0, i1⟩ := idx0_2 t
  unfold iblk
  rw [View.read_apply]
  show (V m c main_v6 : S64x1.Idx → EReal) (((cfg0.win 2).blk t).view.emb (ix2 j (0 : Fin 1))) = _
  have e : ((cfg0.win 2).blk t).view.emb (ix2 j (0 : Fin 1)) = (ix2 j (0 : Fin 1) : S64x1.Idx) := by
    funext a; apply Fin.ext
    match a with
    | ⟨0, _⟩ => show win0_2.index t (0 : Fin 2) * 64 + 1 * j.val = j.val; rw [i0]; omega
    | ⟨1, _⟩ => show win0_2.index t (1 : Fin 2) * 1 + 1 * 0 = 0; rw [i1]
  rw [e, V_v6_apply]

/-- The block of `b1` at any point is the whole bias column. -/
theorem blk4_apply (c : Dev nD) (t : Fin cfg0.N) (j : Fin 64) :
    (iblk m c 4 t : Vec Ideal S64x1 .f32) (ix2 j (0 : Fin 1)) = (m ((c : Thread nD τ).loc main_arg4) : FVec Ideal S64 .f32) (ix1 j) := by
  obtain ⟨i0, i1⟩ := idx0_4 t
  unfold iblk
  rw [View.read_apply]
  show (V m c main_v7 : S64x1.Idx → EReal) (((cfg0.win 4).blk t).view.emb (ix2 j (0 : Fin 1))) = _
  have e : ((cfg0.win 4).blk t).view.emb (ix2 j (0 : Fin 1)) = (ix2 j (0 : Fin 1) : S64x1.Idx) := by
    funext a; apply Fin.ext
    match a with
    | ⟨0, _⟩ => show win0_4.index t (0 : Fin 2) * 64 + 1 * j.val = j.val; rw [i0]; omega
    | ⟨1, _⟩ => show win0_4.index t (1 : Fin 2) * 1 + 1 * 0 = 0; rw [i1]
  rw [e, V_v7_apply]

/-- The block of `b2` at any point is the whole bias column. -/
theorem blk6_apply (c : Dev nD) (t : Fin cfg0.N) (j : Fin 64) :
    (iblk m c 6 t : Vec Ideal S64x1 .f32) (ix2 j (0 : Fin 1)) = (m ((c : Thread nD τ).loc main_arg6) : FVec Ideal S64 .f32) (ix1 j) := by
  obtain ⟨i0, i1⟩ := idx0_6 t
  unfold iblk
  rw [View.read_apply]
  show (V m c main_v8 : S64x1.Idx → EReal) (((cfg0.win 6).blk t).view.emb (ix2 j (0 : Fin 1))) = _
  have e : ((cfg0.win 6).blk t).view.emb (ix2 j (0 : Fin 1)) = (ix2 j (0 : Fin 1) : S64x1.Idx) := by
    funext a; apply Fin.ext
    match a with
    | ⟨0, _⟩ => show win0_6.index t (0 : Fin 2) * 64 + 1 * j.val = j.val; rw [i0]; omega
    | ⟨1, _⟩ => show win0_6.index t (1 : Fin 2) * 1 + 1 * 0 = 0; rw [i1]
  rw [e, V_v8_apply]

/-- The block of `b3` at any point is the whole bias column. -/
theorem blk8_apply (c : Dev nD) (t : Fin cfg0.N) (j : Fin 3) :
    (iblk m c 8 t : Vec Ideal S3x1 .f32) (ix2 j (0 : Fin 1)) = (m ((c : Thread nD τ).loc main_arg8) : FVec Ideal S3 .f32) (ix1 j) := by
  obtain ⟨i0, i1⟩ := idx0_8 t
  unfold iblk
  rw [View.read_apply]
  show (V m c main_v9 : S3x1.Idx → EReal) (((cfg0.win 8).blk t).view.emb (ix2 j (0 : Fin 1))) = _
  have e : ((cfg0.win 8).blk t).view.emb (ix2 j (0 : Fin 1)) = (ix2 j (0 : Fin 1) : S3x1.Idx) := by
    funext a; apply Fin.ext
    match a with
    | ⟨0, _⟩ => show win0_8.index t (0 : Fin 2) * 3 + 1 * j.val = j.val; rw [i0]; omega
    | ⟨1, _⟩ => show win0_8.index t (1 : Fin 2) * 1 + 1 * 0 = 0; rw [i1]
  rw [e, V_v9_apply]

end Cert.KernelIdeal.Arrays

end
-- ==== Proof.KernelValue.lean ====
/-
  The kernel's result array.

  Point `t` writes back a `[3, 16384]` block: entry `(o, q)` is output `o` of the network at sample `16384 t + q`
  (the body's arithmetic down column `q`, over the blocks the point was handed).  So every block written back is a
  block of ONE array, the network's outputs with the samples along the columns; the 128 blocks tile that array (the
  block that holds column `n` is block `n / 16384`), so after the region the array IS that function.  The last host
  line transposes it: entry `(n, o)` of the program's result is entry `(o, n)` of the array.
-/
import proofs.«431267_j11982958756336_3_alg».proof.Proof.Gen.KernelIdeal.Frame
import proofs.«431267_j11982958756336_3_alg».proof.Proof.Spec
import proofs.«431267_j11982958756336_3_alg».proof.Proof.KernelBody
import proofs.«431267_j11982958756336_3_alg».proof.Proof.KernelArrays
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network's outputs at every sample, samples along the columns, of the argument arrays as launched. -/
abbrev byCols (c : Dev nD) : FVec Ideal S3x2097152 .f32 := Mlp.byCols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The same with the samples along the rows: the program's result. -/
abbrev byRows (c : Dev nD) : FVec Ideal S2097152x3 .f32 := Mlp.byRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` stores at `(o, q)` is the array's entry `(o, 16384 t + q)`. -/
theorem point_eq (c : Dev nD) (t : Fin cfg0.N) (o : Fin 3) (q : Fin 16384) (n : Fin 2097152) (hn : n.val = t.val * 16384 + q.val) :
    (k0_pay1 (F := Ideal) (k0_pay2 (iblk m c 0 t) (iblk m c 1 t) (iblk m c 2 t) (iblk m c 3 t) (iblk m c 4 t) (iblk m c 5 t) (iblk m c 6 t) (iblk m c 7 t)) (iblk m c 8 t) : FVec Ideal S3x16384 .f32) (ix2 o q) = byCols m c (ix2 o n) :=
  (Body.stored_apply (iblk m c 0 t) (iblk m c 1 t) (iblk m c 2 t) (iblk m c 3 t) (iblk m c 4 t) (iblk m c 5 t) (iblk m c 6 t) (iblk m c 7 t) (iblk m c 8 t) o q).trans
    (Mlp.net_congr (Arrays.blk1_apply m c t) (Arrays.blk2_apply m c t) (Arrays.blk3_apply m c t) (Arrays.blk4_apply m c t)
      (Arrays.blk5_apply m c t) (Arrays.blk6_apply m c t) (Arrays.blk7_apply m c t) (Arrays.blk8_apply m c t)
      (fun d => Arrays.xblk_apply m c t d q n hn) o)

/-- WHAT POINT `t` WRITES BACK is block `t` of that array. -/
theorem flushed_eq (c : Dev nD) (t : Fin cfg0.N) :
    (dats m 0 c).flushed 9 t = ((cfg0.win 9).blk t).view.read (Elt Ideal) (byCols m c) := by
  show (cfg0.win 9).cut (grid0.coords t) ((dats m 0 c).after 9 t) = _
  rw [after0_9]
  unfold out0_9
  rw [View.canon_unit_zero hz]
  simp only [View.ld_unit_zero (S := S32x16384) hz, View.ld_unit_zero (S := S64x32) hz, View.ld_unit_zero (S := S64x1) hz,
    View.ld_unit_zero (S := S64x64) hz, View.ld_unit_zero (S := S3x64) hz, View.ld_unit_zero (S := S3x1) hz]
  obtain ⟨e0, e1⟩ := Arrays.idx0_9 t
  have hN : cfg0.N = 128 := N_0
  have ht : t.val < 128 := hN ▸ t.isLt
  show (k0_pay1 (F := Ideal) (k0_pay2 (iblk m c 0 t) (iblk m c 1 t) (iblk m c 2 t) (iblk m c 3 t) (iblk m c 4 t) (iblk m c 5 t) (iblk m c 6 t) (iblk m c 7 t)) (iblk m c 8 t) : FVec Ideal S3x16384 .f32)
    = fun y : S3x16384.Idx => byCols m c (((cfg0.win 9).blk t).view.emb y)
  funext y
  obtain ⟨o, q, rfl⟩ : ∃ (o : Fin 3) (q : Fin 16384), y = ix2 o q := ⟨y 0, y 1, eq_ix2 y⟩
  have e : ((cfg0.win 9).blk t).view.emb (ix2 o q) = (ix2 o (⟨t.val * 16384 + q.val, by have := q.isLt; omega⟩ : Fin 2097152) : S3x2097152.Idx) := by
    funext a; apply Fin.ext
    match a with
    | ⟨0, _⟩ => show win0_9.index t (0 : Fin 2) * 3 + 1 * o.val = o.val; rw [e0]; omega
    | ⟨1, _⟩ => show win0_9.index t (1 : Fin 2) * 16384 + 1 * q.val = t.val * 16384 + q.val; rw [e1]; omega
  rw [e]
  exact point_eq m c t o q _ rfl

/-- An index of the array is in point `t`'s block iff each coordinate is in the block's range on its axis. -/
theorem mem_blk (t : Fin cfg0.N) (i : S3x2097152.Idx) :
    i ∈ ((cfg0.win 9).blk t).view.set ↔ ∀ a : Fin 2, win0_9.index t a * S3x16384.size a ≤ (i a).val ∧ (i a).val < win0_9.index t a * S3x16384.size a + S3x16384.size a := by
  show i ∈ ((View.whole main_v10).slice (win0_9.rect t)).set ↔ _
  rw [View.set_slice_whole, Rect.mem_set_unit]
  exact Iff.rfl

/-- Every column is in some point's block: column `n` in block `n / 16384`. -/
theorem covered (i : S3x2097152.Idx) : ∃ t : Fin cfg0.N, (cfg0.win 9).flush t = true ∧ i ∈ ((cfg0.win 9).blk t).view.set := by
  have h0 : (i 0).val < 3 := (i 0).isLt
  have h1 : (i 1).val < 2097152 := (i 1).isLt
  have hN : cfg0.N = 128 := N_0
  obtain ⟨t, htv⟩ : ∃ t : Fin cfg0.N, t.val = (i 1).val / 16384 := ⟨⟨(i 1).val / 16384, by rw [hN]; omega⟩, rfl⟩
  obtain ⟨e0, e1⟩ := Arrays.idx0_9 t
  refine ⟨t, flush0_9 t, ?_⟩
  rw [mem_blk]
  intro a
  match a with
  | ⟨0, _⟩ => show win0_9.index t (0 : Fin 2) * 3 ≤ (i 0).val ∧ (i 0).val < win0_9.index t (0 : Fin 2) * 3 + 3; rw [e0]; omega
  | ⟨1, _⟩ => show win0_9.index t (1 : Fin 2) * 16384 ≤ (i 1).val ∧ (i 1).val < win0_9.index t (1 : Fin 2) * 16384 + 16384; rw [e1, htv]; omega

/-- THE ARRAY after the region: the network's outputs, samples along the columns. -/
theorem final (c : Dev nD) : (dats m 0 c).arrAt 9 cfg0.N = byCols m c :=
  (dats m 0 c).arrAt_eq_of_cover 9 (byCols m c) (fun t _ => flushed_eq m c t) covered

/-- The program's result after the last host line: that array transposed. -/
theorem result_eq (c : Dev nD) : Pipeline.afterTail₀ cfgs (dats m) 0 (V0 m) [hostOps1] c main_v11 = byRows m c := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = byCols m c :=
    (Pipeline.withArrays_arr spec0 launch0.win.arr_inj c _ _ 9).trans (final m c)
  rw [e]
  funext i
  obtain ⟨n, o, rfl⟩ : ∃ (n : Fin 2097152) (o : Fin 3), i = ix2 n o := ⟨i 0, i 1, eq_ix2 i⟩
  rw [transpose_ix2_apply]
  rfl

/-- THE RUN, READ: every weakly fair execution ends with the result array at the network's outputs of the argument
    arrays, and the argument arrays as launched. -/
theorem run : θ_run defs (onTc (τ := τ) (main (F := Ideal))) ⟨m, fun _ => 0, ρ⟩ (fun r => ∀ c : Dev nD,
      r.2.mem ((c.tc : Thread nD τ).loc main_v11) = byRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.RefValue.lean ====
/-
  The reference, read one sample at a time.  The host computes with the samples along the ROWS: each layer is
  the activations (samples × units) times the transposed weight matrix, plus the bias broadcast over the rows, then
  the positive part; the last layer is followed by `1 / (1 + e^{-z})` spelt out in negation, exponential, sum and
  quotient.  Read along ONE row `n`, each layer is the specification's layer of that row — with every product's
  factors in the other order (activation first), which the product's commutativity absorbs —, and the spelt-out
  quotient is the logistic function by its definition on the extended reals (the literal `1.0` being the real one).
-/
import proofs.«431267_j11982958756336_3_alg».proof.Proof.Gen.ReferenceIdeal.Run
import proofs.«431267_j11982958756336_3_alg».proof.Proof.Gen.ReferenceIdeal.Read
import proofs.«431267_j11982958756336_3_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

variable (x0 : FVec Ideal S2097152x32 .f32) (x1 : FVec Ideal S64x32 .f32) (x2 : FVec Ideal S64 .f32) (x3 : FVec Ideal S64x64 .f32) (x4 : FVec Ideal S64 .f32) (x5 : FVec Ideal S64x64 .f32) (x6 : FVec Ideal S64 .f32) (x7 : FVec Ideal S3x64 .f32) (x8 : FVec Ideal S3 .f32)

/-! ## The three hidden layers along one row

For each layer: the generated stages' index maps at row `n` and unit `j` (the left operand of the product is read at
`(n, k)`, the transposed weight matrix at `(k, j)`, that is the matrix at `(j, k)`, the twice-broadcast bias at `j`), then
the layer's row. -/

theorem lidx1 (n : Fin 2097152) (j : Fin 64) (k : Fin 32) : lidx_main_v1 (ix2 n j) k = ix2 n k :=
  funext fun a => Fin.ext (by match a with | ⟨0, _⟩ => rfl | ⟨1, _⟩ => rfl)
theorem ridx1 (n : Fin 2097152) (j : Fin 64) (k : Fin 32) : idx_main_v0 (ridx_main_v1 (ix2 n j) k) = ix2 j k :=
  funext fun a => Fin.ext (by match a with | ⟨0, _⟩ => rfl | ⟨1, _⟩ => rfl)
theorem bidx1 (n : Fin 2097152) (j : Fin 64) : idx_main_v2 (idx_main_v3 (ix2 n j)) = ix1 j :=
  funext fun a => Fin.ext (by match a with | ⟨0, _⟩ => rfl)

/-- Row `n` of hidden layer 1: the specification's layer of sample `n`'s features. -/
theorem hidden1_row (n : Fin 2097152) :
    (fun j : Fin 64 => val_main_v5 (F := Ideal) x0 x1 x2 (ix2 n j))
      = Mlp.layer (Mlp.rows x1) (Mlp.vec x2) (fun d => x0 (ix2 n d)) := by
  funext j
  rw [val_main_v5_apply, val_main_v4_apply, val_main_v1_apply, val_main_v3_apply, val_main_v2_apply, val_main_call0_v0_apply,
    val_main_call0_cst_apply]
  simp only [val_main_v0_apply, lidx1, ridx1, bidx1]
  show max ((∑ k : Fin 32, x0 (ix2 n k) * x1 (ix2 j k)) + x2 (ix1 j)) (Ideal.ofBits .f32 0x00000000#32) = _
  rw [Ideal.ofBits_zero_f32]
  exact congrArg (max · 0) (Mlp.affine_comm (Mlp.rows x1 j) (Mlp.vec x2 j) _)

theorem lidx2 (n : Fin 2097152) (j : Fin 64) (k : Fin 64) : lidx_main_v7 (ix2 n j) k = ix2 n k :=
  funext fun a => Fin.ext (by match a with | ⟨0, _⟩ => rfl | ⟨1, _⟩ => rfl)
theorem ridx2 (n : Fin 2097152) (j : Fin 64) (k : Fin 64) : idx_main_v6 (ridx_main_v7 (ix2 n j) k) = ix2 j k :=
  funext fun a => Fin.ext (by match a with | ⟨0, _⟩ => rfl | ⟨1, _⟩ => rfl)
theorem bidx2 (n : Fin 2097152) (j : Fin 64) : idx_main_v8 (idx_main_v9 (ix2 n j)) = ix1 j :=
  funext fun a => Fin.ext (by match a with | ⟨0, _⟩ => rfl)

/-- Row `n` of hidden layer 2: the specification's layer of row `n` of the layer before. -/
theorem hidden2_row (n : Fin 2097152) :
    (fun j : Fin 64 => val_main_v11 (F := Ideal) x0 x1 x2 x3 x4 (ix2 n j))
      = Mlp.layer (Mlp.rows x3) (Mlp.vec x4) (fun k => val_main_v5 (F := Ideal) x0 x1 x2 (ix2 n k)) := by
  funext j
  rw [val_main_v11_apply, val_main_v10_apply, val_main_v7_apply, val_main_v9_apply, val_main_v8_apply, val_main_call1_v0_apply,
    val_main_call1_cst_apply]
  simp only [val_main_v6_apply, lidx2, ridx2, bidx2]
  show max ((∑ k : Fin 64, val_main_v5 (F := Ideal) x0 x1 x2 (ix2 n k) * x3 (ix2 j k)) + x4 (ix1 j)) (Ideal.ofBits .f32 0x00000000#32) = _
  rw [Ideal.ofBits_zero_f32]
  exact congrArg (max · 0) (Mlp.affine_comm (Mlp.rows x3 j) (Mlp.vec x4 j) _)

theorem lidx3 (n : Fin 2097152) (j : Fin 64) (k : Fin 64) : lidx_main_v13 (ix2 n j) k = ix2 n k :=
  funext fun a => Fin.ext (by match a with | ⟨0, _⟩ => rfl | ⟨1, _⟩ => rfl)
theorem ridx3 (n : Fin 2097152) (j : Fin 64) (k : Fin 64) : idx_main_v12 (ridx_main_v13 (ix2 n j) k) = ix2 j k :=
  funext fun a => Fin.ext (by match a with | ⟨0, _⟩ => rfl | ⟨1, _⟩ => rfl)
theorem bidx3 (n : Fin 2097152) (j : Fin 64) : idx_main_v14 (idx_main_v15 (ix2 n j)) = ix1 j :=
  funext fun a => Fin.ext (by match a with | ⟨0, _⟩ => rfl)

/-- Row `n` of hidden layer 3: the specification's layer of row `n` of the layer before. -/
theorem hidden3_row (n : Fin 2097152) :
    (fun j : Fin 64 => val_main_v17 (F := Ideal) x0 x1 x2 x3 x4 x5 x6 (ix2 n j))
      = Mlp.layer (Mlp.rows x5) (Mlp.vec x6) (fun k => val_main_v11 (F := Ideal) x0 x1 x2 x3 x4 (ix2 n k)) := by
  funext j
  rw [val_main_v17_apply, val_main_v16_apply, val_main_v13_apply, val_main_v15_apply, val_main_v14_apply, val_main_call2_v0_apply,
    val_main_call2_cst_apply]
  simp only [val_main_v12_apply, lidx3, ridx3, bidx3]
  show max ((∑ k : Fin 64, val_main_v11 (F := Ideal) x0 x1 x2 x3 x4 (ix2 n k) * x5 (ix2 j k)) + x6 (ix1 j)) (Ideal.ofBits .f32 0x00000000#32) = _
  rw [Ideal.ofBits_zero_f32]
  exact congrArg (max · 0) (Mlp.affine_comm (Mlp.rows x5 j) (Mlp.vec x6 j) _)

/-! ## The output layer and the whole result -/

theorem lidx4 (n : Fin 2097152) (o : Fin 3) (k : Fin 64) : lidx_main_v19 (ix2 n o) k = ix2 n k :=
  funext fun a => Fin.ext (by match a with | ⟨0, _⟩ => rfl | ⟨1, _⟩ => rfl)
theorem ridx4 (n : Fin 2097152) (o : Fin 3) (k : Fin 64) : idx_main_v18 (ridx_main_v19 (ix2 n o) k) = ix2 o k :=
  funext fun a => Fin.ext (by match a with | ⟨0, _⟩ => rfl | ⟨1, _⟩ => rfl)
theorem bidx4 (n : Fin 2097152) (o : Fin 3) : idx_main_v20 (idx_main_v21 (ix2 n o)) = ix1 o :=
  funext fun a => Fin.ext (by match a with | ⟨0, _⟩ => rfl)

/-- Entry `(n, o)` of the result: the quotient `1 / (1 + e^{-z})` of the last affine unit `o` over row `n` of the third
    hidden layer is the logistic function of it. -/
theorem result_apply (n : Fin 2097152) (o : Fin 3) :
    val_main_v28 (F := Ideal) x0 x1 x2 x3 x4 x5 x6 x7 x8 (ix2 n o)
      = Ideal.logistic (Mlp.affine (Mlp.rows x7 o) (Mlp.vec x8 o) (fun k => val_main_v17 (F := Ideal) x0 x1 x2 x3 x4 x5 x6 (ix2 n k))) := by
  rw [val_main_v28_apply, val_main_v27_apply, val_main_cst_0_apply, val_main_v26_apply, val_main_v25_apply, val_main_cst_apply,
    val_main_v24_apply, val_main_v23_apply, val_main_v22_apply, val_main_v19_apply, val_main_v21_apply, val_main_v20_apply]
  simp only [val_main_v18_apply, lidx4, ridx4, bidx4]
  show Ideal.div (Ideal.ofBits .f32 0x3F800000#32) (Ideal.ofBits .f32 0x3F800000#32
      + Ideal.exp (-((∑ k : Fin 64, val_main_v17 (F := Ideal) x0 x1 x2 x3 x4 x5 x6 (ix2 n k) * x7 (ix2 o k)) + x8 (ix1 o)))) = _
  rw [Ideal.ofBits_one_f32, Mlp.affine_comm (Mlp.rows x7 o) (Mlp.vec x8 o)]
  rfl

/-- THE REFERENCE'S RESULT is the network at every sample, samples along the rows. -/
theorem reference_eq : val_main_v28 (F := Ideal) x0 x1 x2 x3 x4 x5 x6 x7 x8 = Mlp.byRows x0 x1 x2 x3 x4 x5 x6 x7 x8 := by
  funext i
  obtain ⟨n, o, rfl⟩ : ∃ (n : Fin 2097152) (o : Fin 3), i = ix2 n o := ⟨i 0, i 1, eq_ix2 i⟩
  rw [result_apply, hidden3_row, hidden2_row, hidden1_row]
  rfl

end Cert.ReferenceIdeal.RefValue

end
-- ==== Proof.lean ====
/-
  The certificate of a four-layer perceptron over 2,097,152 samples of 32 features: three hidden layers of 64 units
  with the positive part, an output layer of 3 units with the logistic function.

  The kernel works feature-major: the host transposes the samples to one sample per column, narrows the matrices'
  float format and reshapes each bias to a column; each of 128 grid points takes 16384 columns, multiplies every
  weight matrix by the current activations, adds the bias column, takes the positive part, and at the end applies
  the logistic function; the host transposes the `[3, 2097152]` result back.  The reference works sample-major:
  activations times the transposed weight matrix, bias broadcast over the rows, and the logistic function spelt out as
  `1 / (1 + e^{-z})`.

  On the extended reals both are ONE function of the argument arrays (`Mlp.byRows`, Proof/Spec.lean): a change of float
  format is the identity, both matrix products are plain sums over the contracted index, the only difference in
  arrangement is the order of the two factors of each product (the product commutes; no finiteness is used), and the
  logistic function is by definition the spelt-out quotient.  The kernel's side is Proof/KernelBody.lean (the body down one
  column), Proof/KernelArrays.lean (the blocks a point is handed, as entries of the arguments) and Proof/KernelValue.lean (the
  blocks tile the result; the last transposition); the reference's is Proof/RefValue.lean, over its generated run.
  The three frames are the generated ones; the idealization rewrote no operation, so `preserves` has nothing to say.
-/
import proofs.«431267_j11982958756336_3_alg».proof.Defs
import proofs.«431267_j11982958756336_3_alg».proof.Proof.Gen.Kernel
import proofs.«431267_j11982958756336_3_alg».proof.Proof.Gen.Kernel.Skeleton
import proofs.«431267_j11982958756336_3_alg».proof.Proof.Gen.Kernel.Launch
import proofs.«431267_j11982958756336_3_alg».proof.Proof.Gen.Kernel.Points
import proofs.«431267_j11982958756336_3_alg».proof.Proof.Gen.Kernel.Frame
import proofs.«431267_j11982958756336_3_alg».proof.Proof.Gen.KernelIdeal
import proofs.«431267_j11982958756336_3_alg».proof.Proof.Gen.KernelIdeal.Skeleton
import proofs.«431267_j11982958756336_3_alg».proof.Proof.Gen.KernelIdeal.Launch
import proofs.«431267_j11982958756336_3_alg».proof.Proof.Gen.KernelIdeal.Points
import proofs.«431267_j11982958756336_3_alg».proof.Proof.Gen.KernelIdeal.Frame
import proofs.«431267_j11982958756336_3_alg».proof.Proof.Gen.ReferenceIdeal
import proofs.«431267_j11982958756336_3_alg».proof.Proof.Gen.ReferenceIdeal.Run
import proofs.«431267_j11982958756336_3_alg».proof.Proof.Gen.ReferenceIdeal.Read
import proofs.«431267_j11982958756336_3_alg».proof.Proof.Gen.Pre_finite_inputs
import proofs.«431267_j11982958756336_3_alg».proof.Proof.KernelValue
import proofs.«431267_j11982958756336_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Run from memories that agree on the nine arguments, the idealized kernel and the idealized reference both end
    with the network's outputs of those arguments, sample by sample and output by output. -/
theorem algebraic : Cert.algebraic_KernelIdeal_ReferenceIdeal := by
  intro m ρ m' ρ' _ hagree
  refine ⟨fun c => Cert.KernelIdeal.KValue.byRows m c, Cert.KernelIdeal.KValue.run m ρ, ?_⟩
  refine (θ_run Cert.ReferenceIdeal.defs _ _).mono (fun _ h c => ⟨((h c).1.trans
    (Cert.ReferenceIdeal.Read.val_main_v28_eq _ _ _ _ _ _ _ _ _)).trans ?_, (h c).2⟩)
    (Cert.ReferenceIdeal.Value.run (F := Ideal) m' ρ')
  rw [Cert.ReferenceIdeal.RefValue.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
